-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S512x11008 : Shape := ⟨2, ![512, 11008]⟩
abbrev S11008 : Shape := ⟨1, ![11008]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S1x4096 .f32) (main_arg1 : IVec S512x11008 32) (main_arg2 : FVec F S11008 .f32) (main_arg3 : FVec F S11008 .f32) (main_arg4 : FVec F S11008 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S1x4096 : Shape := ⟨2, ![1, 4096]⟩
abbrev S512x11008 : Shape := ⟨2, ![512, 11008]⟩
abbrev S11008 : Shape := ⟨1, ![11008]⟩
abbrev S4096 : Shape := ⟨1, ![4096]⟩
abbrev S512x8 : Shape := ⟨2, ![512, 8]⟩
abbrev S8x512 : Shape := ⟨2, ![8, 512]⟩
abbrev S_ : Shape := ⟨0, ![]⟩
abbrev S1x11008 : Shape := ⟨2, ![1, 11008]⟩
abbrev S2x11008 : Shape := ⟨2, ![2, 11008]⟩
abbrev S512x2048 : Shape := ⟨2, ![512, 2048]⟩
abbrev S2x2048 : Shape := ⟨2, ![2, 2048]⟩
abbrev S1x2048 : Shape := ⟨2, ![1, 2048]⟩
abbrev S1x512 : Shape := ⟨2, ![1, 512]⟩

abbrev nBuf : Space → Nat
  | .hbm => 17
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S512x11008, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S4096, .f32⟩
  | .hbm, ⟨6, _⟩ => ⟨S512x8, .f32⟩
  | .hbm, ⟨7, _⟩ => ⟨S8x512, .f32⟩
  | .hbm, ⟨8, _⟩ => ⟨S_, .f32⟩
  | .hbm, ⟨9, _⟩ => ⟨S_, .f32⟩
  | .hbm, ⟨10, _⟩ => ⟨S11008, .f32⟩
  | .hbm, ⟨11, _⟩ => ⟨S11008, .f32⟩
  | .hbm, ⟨12, _⟩ => ⟨S11008, .f32⟩
  | .hbm, ⟨13, _⟩ => ⟨S1x11008, .f32⟩
  | .hbm, ⟨14, _⟩ => ⟨S1x11008, .f32⟩
  | .hbm, ⟨15, _⟩ => ⟨S2x11008, .f32⟩
  | .hbm, ⟨16, _⟩ => ⟨S1x11008, .f32⟩
  | .local _ .vmem, ⟨0, _⟩ => ⟨S8x512, .f32⟩
  | .local _ .vmem, ⟨1, _⟩ => ⟨S512x2048, .i32⟩
  | .local _ .vmem, ⟨2, _⟩ => ⟨S512x2048, .i32⟩
  | .local _ .vmem, ⟨3, _⟩ => ⟨S2x2048, .f32⟩
  | .local _ .vmem, ⟨4, _⟩ => ⟨S2x2048, .f32⟩
  | .local _ .vmem, ⟨5, _⟩ => ⟨S1x2048, .f32⟩
  | .local _ .vmem, ⟨6, _⟩ => ⟨S1x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x4096_S4096 : S1x4096.ShapeCasts S4096
  shapeCasts_S4096_S512x8 : S4096.ShapeCasts S512x8
  transposes_S512x8_S8x512_1_0 : S512x8.Transposes [1, 0] S8x512
  reducesTo_S1x4096_S_d0_1 : S1x4096.ReducesTo [0, 1] S_
  h_S_ : 0 < S_.numel
  bcast_S_S11008 : S_.BroadcastsInDim S11008 (![] : Fin 0 → Fin S11008.rank)
  bcast_S11008_S1x11008_1 : S11008.BroadcastsInDim S1x11008 (![1] : Fin 1 → Fin S1x11008.rank)
  concatenates_S1x11008_S1x11008_S2x11008_d0 : Shape.Concatenates [S1x11008, S1x11008] S2x11008 0
  inb_S8x512_S8x512_0_0 : ∀ a, (![0, 0] : Fin 2 → Nat) a + S8x512.size a ≤ S8x512.size a
  h_S8x512 : 0 < S8x512.numel
  shapeCasts_S8x512_S8x512 : S8x512.ShapeCasts S8x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  slices_S8x512_o0_0_S1x512 : S8x512.Slices ![0, 0] S1x512
  slices_S8x512_o1_0_S1x512 : S8x512.Slices ![1, 0] S1x512
  slices_S8x512_o2_0_S1x512 : S8x512.Slices ![2, 0] S1x512
  slices_S8x512_o3_0_S1x512 : S8x512.Slices ![3, 0] S1x512
  slices_S8x512_o4_0_S1x512 : S8x512.Slices ![4, 0] S1x512
  slices_S8x512_o5_0_S1x512 : S8x512.Slices ![5, 0] S1x512
  slices_S8x512_o6_0_S1x512 : S8x512.Slices ![6, 0] S1x512
  slices_S8x512_o7_0_S1x512 : S8x512.Slices ![7, 0] S1x512
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x2048_o0_0_S1x2048 : S2x2048.Slices ![0, 0] S1x2048
  slices_S2x2048_o1_0_S1x2048 : S2x2048.Slices ![1, 0] S1x2048
  inb_S1x2048_S1x2048_0_0 : ∀ a, (![0, 0] : Fin 2 → Nat) a + S1x2048.size a ≤ S1x2048.size a
  h_S1x2048 : 0 < S1x2048.numel
  dot_S1x512_S512x2048_S1x2048_1_0_0_1_n_n_wf : DotDims.WF S1x512 S512x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x512.size a
  hwx0_0 : ∀ i : grid0.Coords, EltTy.bits .f32 = 32 ∨ (Rect.block (s := S8x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2048.size a < S512x11008.size a
  hwx0_1 : ∀ i : grid0.Coords, EltTy.bits .i32 = 32 ∨ (Rect.unit (s := S512x11008) (fun a => cc0_transform_1 i a * S512x2048.size a) (fun a => (Pipeline.Clip.of (cc0_transform_1 i a) (S512x2048.size a) (S512x11008.size a)).extent (S512x2048.size a)) fun a => Pipeline.Clip.inb (Pipeline.Clip.ok_of (hstart0_1 i a))).WholeWords (EltTy.packing .i32)
  hwxs0_1 : ∀ i : grid0.Coords, EltTy.bits .i32 = 32 ∨ (Rect.unit (s := S512x2048) (fun _ => 0) (fun a => (Pipeline.Clip.of (cc0_transform_1 i a) (S512x2048.size a) (S512x11008.size a)).extent (S512x2048.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2x2048.size a < S2x11008.size a
  hwx0_2 : ∀ i : grid0.Coords, EltTy.bits .f32 = 32 ∨ (Rect.unit (s := S2x11008) (fun a => cc0_transform_2 i a * S2x2048.size a) (fun a => (Pipeline.Clip.of (cc0_transform_2 i a) (S2x2048.size a) (S2x11008.size a)).extent (S2x2048.size a)) fun a => Pipeline.Clip.inb (Pipeline.Clip.ok_of (hstart0_2 i a))).WholeWords (EltTy.packing .f32)
  hwxs0_2 : ∀ i : grid0.Coords, EltTy.bits .f32 = 32 ∨ (Rect.unit (s := S2x2048) (fun _ => 0) (fun a => (Pipeline.Clip.of (cc0_transform_2 i a) (S2x2048.size a) (S2x11008.size a)).extent (S2x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x11008.size a
  hwx0_3 : ∀ i : grid0.Coords, EltTy.bits .f32 = 32 ∨ (Rect.unit (s := S1x11008) (fun a => cc0_transform_3 i a * S1x2048.size a) (fun a => (Pipeline.Clip.of (cc0_transform_3 i a) (S1x2048.size a) (S1x11008.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x11008.size a)).extent (S1x2048.size a)) fun a => (Nat.zero_add _).trans_le (Pipeline.Clip.extent_le (Pipeline.Clip.ok_of (hstart0_3 i a)))).WholeWords (EltTy.packing .f32)

variable [Facts₀]

def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev win0_0 : Pipeline.Window sig grid0 :=
  Pipeline.Window.ofSpec (Memref.whole main_v2) S8x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v9) S2x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v10) S1x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x4096 : Shape := ⟨2, ![1, 4096]⟩
abbrev S512x11008 : Shape := ⟨2, ![512, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S1x11008 : Shape := ⟨2, ![1, 11008]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S512x11008, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S4096x11008, .f32⟩
  | .hbm, ⟨19, _⟩ => ⟨S1x11008, .f32⟩
  | .hbm, ⟨20, _⟩ => ⟨S_, .f32⟩
  | .hbm, ⟨21, _⟩ => ⟨S1, .f32⟩
  | .hbm, ⟨22, _⟩ => ⟨S1x1, .f32⟩
  | .hbm, ⟨23, _⟩ => ⟨S1x11008, .f32⟩
  | .hbm, ⟨24, _⟩ => ⟨S1x11008, .f32⟩
  | .hbm, ⟨25, _⟩ => ⟨S1x11008, .f32⟩
  | .hbm, ⟨26, _⟩ => ⟨S1x11008, .f32⟩
  | .hbm, ⟨27, _⟩ => ⟨S1x11008, .f32⟩
  | .hbm, ⟨28, _⟩ => ⟨S1x11008, .f32⟩
  | .hbm, ⟨29, _⟩ => ⟨S1x11008, .f32⟩
  | .hbm, ⟨30, _⟩ => ⟨S1x11008, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  reducesTo_S1x4096_S1_d1 : S1x4096.ReducesTo [1] S1
  h_S_ : 0 < S_.numel
  bcast_S1_S1x1_0 : S1.BroadcastsInDim S1x1 (![0] : Fin 1 → Fin S1x1.rank)
  bcast_S11008_S1x11008_1 : S11008.BroadcastsInDim S1x11008 (![1] : Fin 1 → Fin S1x11008.rank)
  bcast_S1x1_S1x11008_0_1 : S1x1.BroadcastsInDim S1x11008 (![0, 1] : Fin 2 → Fin S1x11008.rank)
  dot_S1x4096_S4096x11008_S1x11008_1_0_0_1_n_n_wf : DotDims.WF S1x4096 S4096x11008 S1x11008 [1] [0] [0] [1] [] []

variable [Facts₀]

def dot_S1x4096_S4096x11008_S1x11008_1_0_0_1_n_n : DotDims S1x4096 S4096x11008 S1x11008 where
  lhsContracting := [1]
  rhsContracting := [0]
  lhsNonContracting := [0]
  rhsNonContracting := [1]
  lhsBatch := []
  rhsBatch := []
  wf := dot_S1x4096_S4096x11008_S1x11008_1_0_0_1_n_n_wf

class Facts : Prop extends Facts₀ where

variable [Facts]
-- ==== Proof.BodyK.lean ====
/-
  The kernel body as one step on whole staging buffers, at any float instance.
  The body loads the re-laid activation block (8 x 512), the packed weight block (512 x 2048) and the two-row
  parameter block (2 x 2048), and stores ONE row of 2048 lanes: for each of the eight nibble positions s it
  extracts nibble s of every packed word, multiplies row s of the activations by that 512 x 2048 nibble matrix,
  adds the eight products up, scales by parameter row 0 and adds parameter row 1. Nothing else is written: the
  three input buffers are left as found, and the output buffer ends holding that row, whatever it held before.
-/
import proofs.«415450_j4509715661028_3_alg».proof.Proof.Gen.Kernel.Skeleton
import proofs.«415450_j4509715661028_3_alg».proof.Proof.Gen.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rX : Rect S8x512 := Rect.unit (s := S8x512) ![0, 0] S8x512.size inb_S8x512_S8x512_0_0
abbrev rQ : Rect S512x2048 := Rect.unit (s := S512x2048) ![0, 0] S512x2048.size inb_S512x2048_S512x2048_0_0
abbrev rP : Rect S2x2048 := Rect.unit (s := S2x2048) ![0, 0] S2x2048.size inb_S2x2048_S2x2048_0_0
abbrev rO : Rect S1x2048 := Rect.unit (s := S1x2048) ![0, 0] S1x2048.size inb_S1x2048_S1x2048_0_0

/-! ## What the body stores -/

/-- The stored row, from the contents of the three input buffers: the eight nibble products summed, scaled and
    shifted (the generated payload names composed). -/
def row (x0 : Vec F S8x512 .f32) (x1 : Vec F S512x2048 .i32) (x2 : Vec F S2x2048 .f32) : Vec F S1x2048 .f32 :=
  k0_pay1 (k0_pay2 (View.ld x0 rX)) (View.ld x1 rQ) (k0_pay3 (View.ld x0 rX) (View.ld x1 rQ)) (k0_pay4 (View.ld x1 rQ))
    k0_pay5 (View.ld x2 rP)

/-- The output buffer after the body: its one store, which covers it. -/
def outBuf (x0 : Vec F S8x512 .f32) (x1 : Vec F S512x2048 .i32) (x2 : Vec F S2x2048 .f32) : Vec F S1x2048 .f32 :=
  View.canon [⟨rO, row x0 x1 x2⟩]

theorem cover_out (p0 : Vec F S1x2048 .f32) (y : S1x2048.Idx) :
    ∃ pc ∈ ([⟨rO, p0⟩] : List (View.Piece (Elt F) S1x2048 .f32)), y ∈ pc.1.set :=
  View.cover_of_tiled [⟨rO, p0⟩] S1x2048.size (by rfl) y

/-! ## The body's triple -/

set_option maxHeartbeats 1000000 in
/-- On whole staging buffers holding `x0`, `x1`, `x2` and anything in the output's, the body runs to the three
    inputs unchanged and the output at `outBuf x0 x1 x2`. -/
theorem sound_kernel (c : Dev nD) (E : Set ℕ) (i : grid0.Coords)
    (arg1 : Memref sig .tc .vmem S8x512 .f32) (harg1 : arg1.IsWhole) (arg2 : Memref sig .tc .vmem S512x2048 .i32) (harg2 : arg2.IsWhole)
    (arg3 : Memref sig .tc .vmem S2x2048 .f32) (harg3 : arg3.IsWhole) (arg4 : Memref sig .tc .vmem S1x2048 .f32) (harg4 : arg4.IsWhole)
    (x0 : Vec F S8x512 .f32) (x1 : Vec F S512x2048 .i32) (x2 : Vec F S2x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBuf x0 x1 x2)) -∗ K ⟨⟩))
      ⊢ wp frame (wpE (defs₀ (F := F)) Variants.none c none) E (cc0__quant4_kernel i arg1 harg1 arg2 harg2 arg3 harg3 arg4 harg4) K := by
  simp only [cc0__quant4_kernel_eq_skeleton]; unfold cc0__quant4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.FrameK.lean ====
/-
  The word-level program's frame.
  The frame claim reads nothing of what the kernel writes: it asks that every execution ends, faults nowhere and leaves
  the five arguments as launched. At the word level the matrix unit's product is not a plain sum, and the last point's
  clipped fetches leave words nothing names in the buffers the body multiplies; so nothing is said here of the three
  clipped windows' buffers: each is handed to the body at any contents and taken back at any contents. The activation
  window (whole, fetched once) is named, because the body must find it in place at every later point. The packed-weight
  array is an input of the region, which the region never writes; the other four arguments bypass the region.
-/
import proofs.«415450_j4509715661028_3_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The three clipped windows (the packed weights, the parameters, the result) are not named. -/
def unnamedWins : Fin 4 → Bool := fun w => w.val != 0

/-- The arrays as the region finds them; the activation buffer at its block after every point; the other buffers at
    contents nothing states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

/-- The activation buffer holds its block at every point (fetched at the first, kept afterwards). -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X))

/-- The body at any point: it runs on whatever the three unnamed buffers hold, and leaves the activation buffer as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%X1, H1⟩, ⟨%X2, H2⟩, ⟨%X3, H3⟩⟩
  iapply (sound_kernel (F := F) c Set.univ (grid0.coords t) _ _ _ _ _ _ _ _ (iblk m c 0 t) X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists _; iexact H1
  isplitl [H2]; · iexists _; iexact H2
  iexists _; iexact H3

/-- The library's body obligation with the three clipped windows unnamed. -/
theorem body_obligation (c : Dev nD) :
    BodyObligation (dats (F := F) m 0 c) (defs₀ (F := F)) Variants.none () Set.univ unnamedWins := fun t => by
  rw [bigSep_W0, bigSep_W0]
  exact sound_body m c t

/-! ## The run and the frame -/

set_option backward.isDefEq.respectTransparency.types false in
/-- Every weakly fair execution terminates; every input array of the region ends as the region found it, nothing is
    stated of the result array, and every other buffer ends as the region found it. -/
theorem run_main : θ_run defs (onTc (τ := τ) (main (F := F))) (s₀ m ρ)
    (Pipeline.RDat.FramePost (cfgs 0) (fun c => (dats m 0 c).toRForget unnamedWins) (V m)) :=
  Pipeline.RDat.θ_run_frame cfgs (0 : Fin 1) launch0 defs₀ Variants.none (fun c => (dats m 0 c).toRForget unnamedWins) m ρ main
    (hbody := fun c => (body_obligation m c).loose.toRForget)
    (hshare := fun c => ((dats m 0 c).toRForget unnamedWins).share_full fun _ => rfl)
    (howed := fun _ _ => rfl) (V := V m) (hmain := hmain m Variants.none) (hA := A_eq m) (hΦ := fun _ _ => rfl)

/-- The frame: the packed weights are an input array of the region, never written; the other four arguments bypass
    it; no host operation before it writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel.Hand

end
-- ==== Proof.BodyI.lean ====
/-
  The kernel body as one step on whole staging buffers, at any float instance.
  The body loads the re-laid activation block (8 x 512), the packed weight block (512 x 2048) and the two-row
  parameter block (2 x 2048), and stores ONE row of 2048 lanes: for each of the eight nibble positions s it
  extracts nibble s of every packed word, multiplies row s of the activations by that 512 x 2048 nibble matrix,
  adds the eight products up, scales by parameter row 0 and adds parameter row 1. Nothing else is written: the
  three input buffers are left as found, and the output buffer ends holding that row, whatever it held before.
-/
import proofs.«415450_j4509715661028_3_alg».proof.Proof.Gen.KernelIdeal.Skeleton
import proofs.«415450_j4509715661028_3_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rX : Rect S8x512 := Rect.unit (s := S8x512) ![0, 0] S8x512.size inb_S8x512_S8x512_0_0
abbrev rQ : Rect S512x2048 := Rect.unit (s := S512x2048) ![0, 0] S512x2048.size inb_S512x2048_S512x2048_0_0
abbrev rP : Rect S2x2048 := Rect.unit (s := S2x2048) ![0, 0] S2x2048.size inb_S2x2048_S2x2048_0_0
abbrev rO : Rect S1x2048 := Rect.unit (s := S1x2048) ![0, 0] S1x2048.size inb_S1x2048_S1x2048_0_0

/-! ## What the body stores -/

/-- The stored row, from the contents of the three input buffers: the eight nibble products summed, scaled and
    shifted (the generated payload names composed). -/
def row (x0 : Vec F S8x512 .f32) (x1 : Vec F S512x2048 .i32) (x2 : Vec F S2x2048 .f32) : Vec F S1x2048 .f32 :=
  k0_pay1 (k0_pay2 (View.ld x0 rX)) (View.ld x1 rQ) (k0_pay3 (View.ld x0 rX) (View.ld x1 rQ)) (k0_pay4 (View.ld x1 rQ))
    k0_pay5 (View.ld x2 rP)

/-- The output buffer after the body: its one store, which covers it. -/
def outBuf (x0 : Vec F S8x512 .f32) (x1 : Vec F S512x2048 .i32) (x2 : Vec F S2x2048 .f32) : Vec F S1x2048 .f32 :=
  View.canon [⟨rO, row x0 x1 x2⟩]

theorem cover_out (p0 : Vec F S1x2048 .f32) (y : S1x2048.Idx) :
    ∃ pc ∈ ([⟨rO, p0⟩] : List (View.Piece (Elt F) S1x2048 .f32)), y ∈ pc.1.set :=
  View.cover_of_tiled [⟨rO, p0⟩] S1x2048.size (by rfl) y

/-! ## The body's triple -/

set_option maxHeartbeats 1000000 in
/-- On whole staging buffers holding `x0`, `x1`, `x2` and anything in the output's, the body runs to the three
    inputs unchanged and the output at `outBuf x0 x1 x2`. -/
theorem sound_kernel (c : Dev nD) (E : Set ℕ) (i : grid0.Coords)
    (arg1 : Memref sig .tc .vmem S8x512 .f32) (harg1 : arg1.IsWhole) (arg2 : Memref sig .tc .vmem S512x2048 .i32) (harg2 : arg2.IsWhole)
    (arg3 : Memref sig .tc .vmem S2x2048 .f32) (harg3 : arg3.IsWhole) (arg4 : Memref sig .tc .vmem S1x2048 .f32) (harg4 : arg4.IsWhole)
    (x0 : Vec F S8x512 .f32) (x1 : Vec F S512x2048 .i32) (x2 : Vec F S2x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBuf x0 x1 x2)) -∗ K ⟨⟩))
      ⊢ wp frame (wpE (defs₀ (F := F)) Variants.none c none) E (cc0__quant4_kernel i arg1 harg1 arg2 harg2 arg3 harg3 arg4 harg4) K := by
  simp only [cc0__quant4_kernel_eq_skeleton]; unfold cc0__quant4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Spec.lean ====
/-
  The specification: a 4-bit-quantized linear layer on one activation row.
  A packed word holds eight 4-bit weights; weight s of word w is  (w >> 4s) & 15  (arithmetic shift, then the
  mask, so the sign bit never reaches the result). Input feature  8p + s  meets weight s of packed row p.
  At output column j the layer is

      ( sum over k < 4096 of  x[k] * weight (k mod 8) of q[k / 8, j] ) * scale[j]  -  (sum of x) * zero[j]  +  bias[j].

  Two facts about it, over the extended reals, used to join the two programs:
  the sum over the 4096 features is the sum over the eight weight positions of the sums over the 512 packed rows
  (a re-indexing and an exchange of two finite sums: no finiteness is needed), and
  `A * s + (b - c) = (A * s - c) + b` (subtraction is addition of the negative; addition is commutative and associative).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Weight `s` of a packed word, as an extended real: shift right (arithmetically) by `4 s`, keep the low four bits. -/
def nib (w : BitVec 32) (s : Fin 8) : EReal :=
  (((IntOp.andi (w.sshiftRight' (BitVec.ofNat 32 (4 * s.val))) 15#32).toInt : ℝ) : EReal)

/-- The sum of the activation row, from the float zero. -/
def xsum (x : FVec Ideal ⟨2, ![1, 4096]⟩ .f32) : EReal :=
  Ideal.ofBits .f32 0x00000000#32 + ∑ k : Fin 4096, x (ix2 0 k)

/-- The packed row and the weight position of input feature `k`. -/
def prow (k : Fin 4096) : Fin 512 := ⟨k.val / 8, by have := k.isLt; omega⟩
def ppos (k : Fin 4096) : Fin 8 := ⟨k.val % 8, Nat.mod_lt _ (by decide)⟩
/-- The input feature of packed row `p`, weight position `s`. -/
def feat (p : Fin 512) (s : Fin 8) : Fin 4096 := ⟨8 * p.val + s.val, by have := p.isLt; have := s.isLt; omega⟩

/-- The dequantized product at output column `j`. -/
def dot (x : FVec Ideal ⟨2, ![1, 4096]⟩ .f32) (q : IVec ⟨2, ![512, 11008]⟩ 32) (j : Fin 11008) : EReal :=
  ∑ k : Fin 4096, x (ix2 0 k) * nib (q (ix2 (prow k) j)) (ppos k)

/-- The layer's result. -/
def G (x : FVec Ideal ⟨2, ![1, 4096]⟩ .f32) (q : IVec ⟨2, ![512, 11008]⟩ 32)
    (sc z b : FVec Ideal ⟨1, ![11008]⟩ .f32) : FVec Ideal ⟨2, ![1, 11008]⟩ .f32 :=
  fun i => (dot x q (i 1) * sc (ix1 (i 1)) - xsum x * z (ix1 (i 1))) + b (ix1 (i 1))

/-- The features are the packed rows times the weight positions: `k ↦ (k / 8, k % 8)`, with inverse `(p, s) ↦ 8 p + s`. -/
private def featEquiv : Fin 4096 ≃ Fin 512 × Fin 8 where
  toFun k := (prow k, ppos k)
  invFun ps := feat ps.1 ps.2
  left_inv k := by
    apply Fin.ext
    simp only [prow, ppos, feat]
    omega
  right_inv ps := by
    obtain ⟨p, s⟩ := ps
    have hp := p.isLt
    have hs := s.isLt
    apply Prod.ext
    · apply Fin.ext
      simp only [prow, feat]
      omega
    · apply Fin.ext
      simp only [ppos, feat]
      omega

/-- The 4096 features are the 512 packed rows times the eight positions: the product summed position by position. -/
theorem dot_eq_by_position (x : FVec Ideal ⟨2, ![1, 4096]⟩ .f32) (q : IVec ⟨2, ![512, 11008]⟩ 32) (j : Fin 11008) :
    dot x q j = ∑ s : Fin 8, ∑ p : Fin 512, x (ix2 0 (feat p s)) * nib (q (ix2 p j)) s := by
  unfold dot
  -- exchange the two sums, then read the double sum as one sum over pairs (p, s)
  rw [Finset.sum_comm, ← Fintype.sum_prod_type']
  -- the sum over features is the sum over pairs, term by term along k ↦ (k / 8, k % 8)
  refine Fintype.sum_equiv featEquiv _ _ (fun k => ?_)
  have hk : feat (prow k) (ppos k) = k := featEquiv.left_inv k
  show x (ix2 0 k) * nib (q (ix2 (prow k) j)) (ppos k)
      = x (ix2 0 (feat (prow k) (ppos k))) * nib (q (ix2 (prow k) j)) (ppos k)
  rw [hk]

/-- Scaling then adding `bias - xsum * zero` is scaling, subtracting `xsum * zero`, then adding the bias. -/
theorem regroup (A s b c : EReal) : A * s + (b - c) = (A * s - c) + b := by
  rw [sub_eq_add_neg, sub_eq_add_neg]; ac_rfl

/-- Eight terms added one after the other onto the float zero are their sum. -/
theorem acc8 (d : Fin 8 → EReal) :
    (((((((Ideal.ofBits .f32 0x00000000#32 + d 0) + d 1) + d 2) + d 3) + d 4) + d 5) + d 6) + d 7 = ∑ s : Fin 8, d s := by
  -- the float zero is the extended real 0
  have h0 : Ideal.ofBits .f32 0x00000000#32 = 0 := by simp [Ideal.ofBits, Ideal.ieee]
  rw [h0, Fin.sum_univ_eight, zero_add]

end Cert.Spec

end
-- ==== Proof.KernelRow.lean ====
/-
  The stored row at a lane, over the extended reals.
  Lane j of the row the body stores depends on column j of the packed block and of the parameter block only:
  it is  ( sum over the eight weight positions s, over the 512 packed rows p, of
  activations[s, p] * weight s of packed[p, j] ) * params[0, j] + params[1, j].
-/
import proofs.«415450_j4509715661028_3_alg».proof.Proof.BodyI
import proofs.«415450_j4509715661028_3_alg».proof.Proof.LibDotSum
import proofs.«415450_j4509715661028_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The zero offsets of a rank-2 rectangle, as the constant function. -/
private theorem zeros2 : (![0, 0] : Fin 2 → Nat) = fun _ => 0 := funext fun a => by fin_cases a <;> rfl

/-- Weight `s` of a packed word as the body computes it: the amount `4 s` is below the word's width, so the
    arithmetic shift is the plain one; the masked word read as a signed integer is the same real whatever the
    float format it is converted to. -/
private theorem nib_word (w : BitVec 32) (s : Fin 8) (a : BitVec 32) (ha : a = BitVec.ofNat 32 (4 * s.val)) :
    FloatOps.sitofp (F := Ideal) .bf16 (IntOp.andi (IntOp.shrsi .vector w a) 15#32) = Cert.Spec.nib w s := by
  subst ha
  have hlt : (BitVec.ofNat 32 (4 * s.val)).toNat < 32 := by
    have := s.isLt
    simp only [BitVec.toNat_ofNat]; omega
  unfold IntOp.shrsi Cert.Spec.nib
  rw [if_pos hlt]
  rfl

/-- One of the eight products at lane `j`: row `s` of the activations against the matrix of weights `s`, into the
    zero accumulator, is the sum over the packed rows `p` of  activations[s, p] * weight s of packed[p, j]. -/
private theorem prod_apply (o : Nat) (s : Fin 8) (a : BitVec 32) (ho : s.val = o) (ha : a = BitVec.ofNat 32 (4 * s.val))
    (v2 : FVec Ideal S8x512 .bf16) (v3 : IVec S512x2048 32) (h : S8x512.Slices ![o, 0] S1x512) (j : Fin 2048) :
    matmul dot_S1x512_S512x2048_S1x2048_1_0_0_1_n_n none
        (extractStridedSlice S1x512 ![o, 0] v2 h)
        (sitofp (F := Ideal) .bf16 (andi (shrsi v3 (broadcast S512x2048 a)) (broadcast S512x2048 15#32)))
        (constant S1x2048 .f32 0x00000000#32) (ix2 (0 : Fin 1) j)
      = ∑ p : Fin 512, v2 (ix2 s p) * Cert.Spec.nib (v3 (ix2 p j)) s := by
  rw [Cert.Lib.matmul_rc_apply dot_S1x512_S512x2048_S1x2048_1_0_0_1_n_n rfl rfl rfl rfl rfl rfl]
  refine Finset.sum_congr rfl fun p _ => ?_
  rw [slice2_axis0_apply o v2 h (0 : Fin 1) p s (by rw [ho]; rfl)]
  congr 1
  exact nib_word (v3 (ix2 p j)) s a ha

/-- Over the extended reals the narrowing of the activation block (after a reshape to its own shape) changes nothing. -/
private theorem pay2_apply (x0 : Vec Ideal S8x512 .f32) (i : S8x512.Idx) : k0_pay2 (F := Ideal) x0 i = x0 i := by
  unfold k0_pay2
  show (truncf .bf16 (shapeCast S8x512 x0 shapeCasts_S8x512_S8x512) bitsLt_bf16_f32 : FVec Ideal S8x512 .bf16) i = x0 i
  rw [truncf_apply, shapeCast_self]

/-- The output buffer after the body, at lane `j`. -/
theorem outBuf_apply (x0 : Vec Ideal S8x512 .f32) (x1 : Vec Ideal S512x2048 .i32) (x2 : Vec Ideal S2x2048 .f32) (j : Fin 2048) :
    outBuf (F := Ideal) x0 x1 x2 (ix2 (0 : Fin 1) j)
      = (∑ s : Fin 8, ∑ p : Fin 512, x0 (ix2 s p) * Cert.Spec.nib (x1 (ix2 p j)) s) * x2 (ix2 (0 : Fin 2) j) + x2 (ix2 (1 : Fin 2) j) := by
  -- the one store covers the buffer, so the buffer ends as the stored row; each load reads its buffer whole
  have hrow : outBuf (F := Ideal) x0 x1 x2 = row x0 x1 x2 :=
    View.canon_unit_zero (S := S1x2048) zeros2 inb_S1x2048_S1x2048_0_0 _
  rw [hrow]
  unfold row
  rw [View.ld_unit_zero (S := S8x512) zeros2 inb_S8x512_S8x512_0_0 x0,
    View.ld_unit_zero (S := S512x2048) zeros2 inb_S512x2048_S512x2048_0_0 x1,
    View.ld_unit_zero (S := S2x2048) zeros2 inb_S2x2048_S2x2048_0_0 x2]
  -- the sum over the eight positions, written as eight terms added one after the other onto the float zero
  rw [← Cert.Spec.acc8 (fun s => ∑ p : Fin 512, x0 (ix2 s p) * Cert.Spec.nib (x1 (ix2 p j)) s)]
  simp only [k0_pay1, k0_pay3, k0_pay4, k0_pay5, addf_apply, mulf_apply]
  -- the eight products, positions 0 to 7 (shift amounts 0, 4, ..., 28)
  rw [prod_apply 0 0 0#32 rfl rfl, prod_apply 1 1 4#32 rfl rfl, prod_apply 2 2 8#32 rfl rfl, prod_apply 3 3 12#32 rfl rfl,
    prod_apply 4 4 16#32 rfl rfl, prod_apply 5 5 20#32 rfl rfl, prod_apply 6 6 24#32 rfl rfl, prod_apply 7 7 28#32 rfl rfl]
  simp only [pay2_apply]
  -- rows 0 and 1 of the parameter block at lane j
  rw [slice2_axis0_apply 0 _ slices_S2x2048_o0_0_S1x2048 (0 : Fin 1) j (0 : Fin 2) rfl,
    slice2_axis0_apply 1 _ slices_S2x2048_o1_0_S1x2048 (0 : Fin 1) j (1 : Fin 2) rfl, shapeCast_self]
  -- the splat of the float zero at lane j is the float zero
  rfl

/-- So it depends on column `j` of the packed block and of the parameter block only. -/
theorem outBuf_local (x0 : Vec Ideal S8x512 .f32) (x1 x1' : Vec Ideal S512x2048 .i32) (x2 x2' : Vec Ideal S2x2048 .f32) (j : Fin 2048)
    (h1 : ∀ p : Fin 512, x1 (ix2 p j) = x1' (ix2 p j)) (h2 : ∀ r : Fin 2, x2 (ix2 r j) = x2' (ix2 r j)) :
    outBuf (F := Ideal) x0 x1 x2 (ix2 (0 : Fin 1) j) = outBuf (F := Ideal) x0 x1' x2' (ix2 (0 : Fin 1) j) := by
  rw [outBuf_apply, outBuf_apply]
  simp only [h1, h2]

end Cert.KernelIdeal.Hand

end
-- ==== Proof.Arrays.lean ====
/-
  The arrays the region works on, each named at its literal type, over the extended reals: the five arguments as
  launched, and the two arrays the kernel's own host operations build for the region (the re-laid activations and the
  two-row parameter array).
-/
import proofs.«415450_j4509715661028_3_alg».proof.Proof.Gen.KernelIdeal.Frame
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The activation row, the packed weights, the scales, the zero points and the bias, as launched. -/
abbrev xArr (c : Dev nD) : FVec Ideal S1x4096 .f32 := m ((c.tc : Thread nD τ).loc main_arg0)
abbrev qArr (c : Dev nD) : IVec S512x11008 32 := m ((c.tc : Thread nD τ).loc main_arg1)
abbrev scArr (c : Dev nD) : FVec Ideal S11008 .f32 := m ((c.tc : Thread nD τ).loc main_arg2)
abbrev zArr (c : Dev nD) : FVec Ideal S11008 .f32 := m ((c.tc : Thread nD τ).loc main_arg3)
abbrev bArr (c : Dev nD) : FVec Ideal S11008 .f32 := m ((c.tc : Thread nD τ).loc main_arg4)

/-- The re-laid activations and the parameter array, as the region finds them. -/
abbrev xtArr (c : Dev nD) : FVec Ideal S8x512 .f32 := V m c main_v2
abbrev prArr (c : Dev nD) : FVec Ideal S2x11008 .f32 := V m c main_v9
/-- The packed weights as the region finds them (no host operation writes them). -/
abbrev qV (c : Dev nD) : IVec S512x11008 32 := V m c main_arg1

theorem qV_eq (c : Dev nD) : qV m c = qArr m c := V_main_arg1 m c

end Cert.KernelIdeal.Hand

end
-- ==== Proof.FrameI.lean ====
/-
  The region at the ideal instance, with every buffer's contents named.
  The grid has six points; point t works on columns 2048 t … 2048 t + 2047 of the 11008, so the last point's blocks
  overhang the arrays by 1280 columns. A clipped fetch brings in the columns inside the array and leaves the rest of
  the staging buffer at contents nothing names; a clipped write-back writes only the columns inside the array. So the
  proof data names each clipped buffer on the columns inside the array only. That is enough because the body is
  column-local: lane j of the stored row reads column j of the packed block and of the parameter block and nothing
  else of them, so whatever sits past the array's end never reaches a column that is written back.
-/
import proofs.«415450_j4509715661028_3_alg».proof.Proof.BodyI
import proofs.«415450_j4509715661028_3_alg».proof.Proof.KernelRow
import proofs.«415450_j4509715661028_3_alg».proof.Proof.Arrays

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks, and the clipped ones filled out -/

/-- The activation block (the whole re-laid array, at every point). -/
abbrev xblk (c : Dev nD) (t : Fin cfg0.N) : Vec Ideal S8x512 .f32 := iblk m c 0 t
/-- The packed block's and the parameter block's columns inside the array at point `t`. -/
abbrev qblk (c : Dev nD) (t : Fin cfg0.N) : (win0_1.xblock (grid0.coords t)).Idx → Elt Ideal .i32 := iblk m c 1 t
abbrev pblk (c : Dev nD) (t : Fin cfg0.N) : (win0_2.xblock (grid0.coords t)).Idx → Elt Ideal .f32 := iblk m c 2 t

/-- The same filled out to whole buffers with zeros past the array's end (a choice nothing reads). -/
def qbuf (c : Dev nD) (t : Fin cfg0.N) : Vec Ideal S512x2048 .i32 :=
  win0_1.fill (grid0.coords t) (fun _ => (0#32 : BitVec 32)) (qblk m c t)
def pbuf (c : Dev nD) (t : Fin cfg0.N) : Vec Ideal S2x2048 .f32 :=
  win0_2.fill (grid0.coords t) (fun _ => (0 : EReal)) (pblk m c t)

/-! ## The proof data -/

/-- The arrays as the region finds them; after the body at point `t` the three input buffers at their blocks (the
    clipped ones filled out) and the output buffer at the stored row of those. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => qbuf m c t
    | ⟨2, _⟩ => pbuf m c t
    | ⟨3, _⟩ => outBuf (F := Ideal) (xblk m c t) (qbuf m c t) (pbuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk m c t := by dsimp only [dats]
theorem after0_1 (c : Dev nD) (t : Fin cfg0.N) : (dats m 0 c).after 1 t = qbuf m c t := by dsimp only [dats]
theorem after0_2 (c : Dev nD) (t : Fin cfg0.N) : (dats m 0 c).after 2 t = pbuf m c t := by dsimp only [dats]
theorem after0_3 (c : Dev nD) (t : Fin cfg0.N) :
    (dats m 0 c).after 3 t = outBuf (F := Ideal) (xblk m c t) (qbuf m c t) (pbuf m c t) := by dsimp only [dats]

/-! ## What the body finds -/

/-- The activation buffer holds its block at every point (fetched at the first, kept afterwards). -/
theorem before0_0 (c : Dev nD) (t : Fin cfg0.N) (d) : (dats m 0 c).before 0 t d = xblk m c t :=
  before0_0_of m (dats m 0 c) (A_eq m c 0) (after0_0 m c) t d

/-- The packed and the parameter buffers are fetched at every point: the block on the columns inside the array, the
    buffer's earlier contents `d` elsewhere. -/
theorem before0_1 (c : Dev nD) (t : Fin cfg0.N) (d) :
    (dats m 0 c).before 1 t d = win0_1.fill (grid0.coords t) d (qblk m c t) := by
  rw [Pipeline.Dat.before_fetched _ 1 t (fetch0_1 t)]; rfl
theorem before0_2 (c : Dev nD) (t : Fin cfg0.N) (d) :
    (dats m 0 c).before 2 t d = win0_2.fill (grid0.coords t) d (pblk m c t) := by
  rw [Pipeline.Dat.before_fetched _ 2 t (fetch0_2 t)]; rfl

/-- The output buffer is written back at every point, so the body finds it at contents nothing names. -/
theorem before0_3 (c : Dev nD) (t : Fin cfg0.N) (d) : (dats m 0 c).before 3 t d = d :=
  Pipeline.Dat.before_out_reset _ 3 rfl t (by
    by_cases h : t.val = 0
    · exact .inl h
    · exact .inr ⟨h, flush0_3 _⟩) d

/-! ## Column-locality across the clip -/

/-- What the transfers move, point by point: the clipped windows are cut on the column axis alike, and never on the
    row axis. -/
theorem xsizes (t : Fin cfg0.N) :
    win0_1.xsize (grid0.coords t) 0 = 512 ∧ win0_2.xsize (grid0.coords t) 0 = 2 ∧ win0_3.xsize (grid0.coords t) 0 = 1
      ∧ win0_1.xsize (grid0.coords t) 1 = win0_3.xsize (grid0.coords t) 1
      ∧ win0_2.xsize (grid0.coords t) 1 = win0_3.xsize (grid0.coords t) 1 := by
  rcases fin_N0 t with rfl | rfl | rfl | rfl | rfl | rfl <;> decide +kernel

/-- Filling a buffer changes nothing at an index the transfer moves. -/
theorem fill_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The part of the stored row that is written back does not see what the clipped input buffers hold past the array's
    end: two fillings of the same blocks give the same row on the columns inside the array. -/
theorem cut_outBuf_fill (t : Fin cfg0.N) (x0 : Vec Ideal S8x512 .f32)
    (d1 d1' : S512x2048.Idx → Elt Ideal .i32) (g1 : (win0_1.xblock (grid0.coords t)).Idx → Elt Ideal .i32)
    (d2 d2' : S2x2048.Idx → Elt Ideal .f32) (g2 : (win0_2.xblock (grid0.coords t)).Idx → Elt Ideal .f32) :
    win0_3.cut (grid0.coords t) (outBuf (F := Ideal) x0 (win0_1.fill (grid0.coords t) d1 g1) (win0_2.fill (grid0.coords t) d2 g2))
      = win0_3.cut (grid0.coords t) (outBuf (F := Ideal) x0 (win0_1.fill (grid0.coords t) d1' g1) (win0_2.fill (grid0.coords t) d2' g2)) := by
  obtain ⟨h10, h20, h30, h11, h21⟩ := xsizes t
  funext j
  have hj0 : (j 0).val < win0_3.xsize (grid0.coords t) 0 := (j 0).isLt
  have hj1 : (j 1).val < win0_3.xsize (grid0.coords t) 1 := (j 1).isLt
  have hle : win0_3.xsize (grid0.coords t) 1 ≤ 2048 := win0_3.xsize_le (grid0.coords t) 1
  have hj : win0_3.xinj (grid0.coords t) j = ix2 (0 : Fin 1) (⟨(j 1).val, by omega⟩ : Fin 2048) := funext fun a => Fin.ext (by
    match a with
    | ⟨0, _⟩ => show (j 0).val = 0; omega
    | ⟨1, _⟩ => rfl)
  show outBuf (F := Ideal) x0 _ _ (win0_3.xinj (grid0.coords t) j) = outBuf (F := Ideal) x0 _ _ (win0_3.xinj (grid0.coords t) j)
  rw [hj]
  refine outBuf_local x0 _ _ _ _ _ (fun p => ?_) (fun r => ?_)
  · refine fill_moved win0_1 _ _ _ _ _ ((win0_1.moved_iff _ _).mpr fun a => ?_)
    match a with
    | ⟨0, _⟩ => show p.val < win0_1.xsize (grid0.coords t) 0; rw [h10]; exact p.isLt
    | ⟨1, _⟩ => show (j 1).val < win0_1.xsize (grid0.coords t) 1; rw [h11]; exact hj1
  · refine fill_moved win0_2 _ _ _ _ _ ((win0_2.moved_iff _ _).mpr fun a => ?_)
    match a with
    | ⟨0, _⟩ => show r.val < win0_2.xsize (grid0.coords t) 0; rw [h20]; exact r.isLt
    | ⟨1, _⟩ => show (j 1).val < win0_2.xsize (grid0.coords t) 1; rw [h21]; exact hj1

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the activation buffer at its block; each clipped buffer at what the proof data names on the
    columns inside the array, at anything past them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (xblk m c t)
    (win0_1.fill (grid0.coords t) d1 (qblk m c t)) (win0_2.fill (grid0.coords t) d2 (pblk m c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (qbuf m c t) = qblk m c t from win0_1.cut_fill _ _ _]
    iexact H1
  isplitl [H2]
  · iexists d2
    rw [show (cfg0.win 2).cut (cfg0.grid.coords t) (pbuf m c t) = pblk m c t from win0_2.cut_fill _ _ _]
    iexact H2
  · iexists outBuf (F := Ideal) (xblk m c t) (win0_1.fill (grid0.coords t) d1 (qblk m c t)) (win0_2.fill (grid0.coords t) d2 (pblk m c t))
    rw [show (cfg0.win 3).fill (cfg0.grid.coords t)
          (outBuf (F := Ideal) (xblk m c t) (win0_1.fill (grid0.coords t) d1 (qblk m c t)) (win0_2.fill (grid0.coords t) d2 (pblk m c t)))
          ((cfg0.win 3).cut (cfg0.grid.coords t) (outBuf (F := Ideal) (xblk m c t) (qbuf m c t) (pbuf m c t)))
        = outBuf (F := Ideal) (xblk m c t) (win0_1.fill (grid0.coords t) d1 (qblk m c t)) (win0_2.fill (grid0.coords t) d2 (pblk m c t))
      from win0_3.fill_congr_cut (grid0.coords t) (cut_outBuf_fill t _ _ _ _ _ _ _)]
    iexact H3

/-- The library's body obligation, at every point, in the form that states a clipped buffer on the moved part only. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program terminates, and every final state has each array of the region at what
    the proof data computes (an input as found; the result overwritten block by block by the stored rows' columns
    inside the array) and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame at the ideal instance: the five arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Cover.lean ====
/-
  The result array after the run, in closed form.
  Point t writes back columns 2048 t … of the row it stored, cut at the array's end (the last point writes 768 columns).
  Lane jj of that row is column 2048 t + jj of ONE function of the whole arrays the region finds: the eight weight
  positions' products of the re-laid activations with the packed column, scaled by parameter row 0, plus parameter
  row 1. The six points' column ranges 0…2047, …, 8192…10239, 10240…11007 cover the 11008 columns, so the array ends
  holding that function.
-/
import proofs.«415450_j4509715661028_3_alg».proof.Proof.FrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- What the result array ends holding, from the arrays the region finds: at column J, the products over the eight
    weight positions and the 512 packed rows, scaled and shifted by the parameter array's two rows. -/
def Gk (c : Dev nD) : FVec Ideal S1x11008 .f32 := fun i =>
  (∑ s : Fin 8, ∑ p : Fin 512, xtArr m c (ix2 s p) * Cert.Spec.nib (qV m c (ix2 p (i 1))) s) * prArr m c (ix2 (0 : Fin 2) (i 1))
    + prArr m c (ix2 (1 : Fin 2) (i 1))

/-- The printed index maps and cuts, decided over the six points: the activation window stays at block (0, 0); the
    three clipped windows are at block (0, t), whole on the row axis and cut to the array's end on the column axis. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_3.xsize (grid0.coords t) (0 : Fin 2) = 1
    ∧ win0_3.xsize (grid0.coords t) (1 : Fin 2) = min 2048 (11008 - 2048 * t.val) :=
  (by decide +kernel : ∀ t : Fin grid0.N, _)

/-- The activation block is the whole re-laid array. -/
theorem xblk_apply (c : Dev nD) (t : Fin cfg0.N) (s : Fin 8) (p : Fin 512) :
    xblk m c t (ix2 s p) = xtArr m c (ix2 s p) := by
  obtain ⟨e0, e1, -⟩ := idx_facts t
  show V m c main_v2 (((cfg0.win 0).blk t).view.emb (ix2 s p)) = V m c main_v2 (ix2 s p)
  refine congrArg _ (funext fun a => Fin.ext ?_)
  match a with
  | ⟨0, _⟩ => show win0_0.index t (0 : Fin 2) * 8 + 1 * s.val = s.val; omega
  | ⟨1, _⟩ => show win0_0.index t (1 : Fin 2) * 512 + 1 * p.val = p.val; omega

/-- WHAT POINT `t` WRITES BACK is block `t` of that function. -/
theorem flushed_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after0_3]
  obtain ⟨h10, h20, h30, h11, h21⟩ := xsizes t
  obtain ⟨e00, e01, e10, e11, e20, e21, e30, e31, x30, x31⟩ := idx_facts t
  funext j
  have hj0 : (j 0).val < win0_3.xsize (grid0.coords t) 0 := (j 0).isLt
  have hj1 : (j 1).val < win0_3.xsize (grid0.coords t) 1 := (j 1).isLt
  have hle : win0_3.xsize (grid0.coords t) 1 ≤ 2048 := win0_3.xsize_le (grid0.coords t) 1
  have ht : t.val < 6 := t.isLt
  have hJ : 2048 * t.val + (j 1).val < 11008 := by rw [x31] at hj1; omega
  have hj : win0_3.xinj (grid0.coords t) j = ix2 (0 : Fin 1) (⟨(j 1).val, by omega⟩ : Fin 2048) := funext fun a => Fin.ext (by
    match a with
    | ⟨0, _⟩ => show (j 0).val = 0; omega
    | ⟨1, _⟩ => rfl)
  -- the array index the write-back puts lane `j` at: row 0, column 2048 t + j
  have hi : ((cfg0.win 3).blk t).view.emb j = ix2 (0 : Fin 1) (⟨2048 * t.val + (j 1).val, hJ⟩ : Fin 11008) := funext fun a => Fin.ext (by
    match a with
    | ⟨0, _⟩ => show win0_3.index t (0 : Fin 2) * 1 + 1 * (j 0).val = 0; omega
    | ⟨1, _⟩ => show win0_3.index t (1 : Fin 2) * 2048 + 1 * (j 1).val = 2048 * t.val + (j 1).val; omega)
  show outBuf (F := Ideal) (xblk m c t) (qbuf m c t) (pbuf m c t) (win0_3.xinj (grid0.coords t) j) = Gk m c (((cfg0.win 3).blk t).view.emb j)
  rw [hj, hi, outBuf_apply]
  -- the packed column and the two parameter entries the lane reads are the arrays' at column 2048 t + j
  have hq : ∀ p : Fin 512, qbuf m c t (ix2 p (⟨(j 1).val, by omega⟩ : Fin 2048)) = qV m c (ix2 p (⟨2048 * t.val + (j 1).val, hJ⟩ : Fin 11008)) := fun p => by
    have hm : win0_1.moved (grid0.coords t) (ix2 p (⟨(j 1).val, by omega⟩ : Fin 2048)) = true := (win0_1.moved_iff _ _).mpr fun a => by
      match a with
      | ⟨0, _⟩ => show p.val < win0_1.xsize (grid0.coords t) 0; rw [h10]; exact p.isLt
      | ⟨1, _⟩ => show (j 1).val < win0_1.xsize (grid0.coords t) 1; rw [h11]; exact hj1
    unfold qbuf Pipeline.Window.fill
    rw [dif_pos hm]
    show V m c main_arg1 (((cfg0.win 1).blk t).view.emb _) = V m c main_arg1 _
    refine congrArg _ (funext fun a => Fin.ext ?_)
    match a with
    | ⟨0, _⟩ => show win0_1.index t (0 : Fin 2) * 512 + 1 * p.val = p.val; omega
    | ⟨1, _⟩ => show win0_1.index t (1 : Fin 2) * 2048 + 1 * (j 1).val = 2048 * t.val + (j 1).val; omega
  have hp : ∀ r : Fin 2, pbuf m c t (ix2 r (⟨(j 1).val, by omega⟩ : Fin 2048)) = prArr m c (ix2 r (⟨2048 * t.val + (j 1).val, hJ⟩ : Fin 11008)) := fun r => by
    have hm : win0_2.moved (grid0.coords t) (ix2 r (⟨(j 1).val, by omega⟩ : Fin 2048)) = true := (win0_2.moved_iff _ _).mpr fun a => by
      match a with
      | ⟨0, _⟩ => show r.val < win0_2.xsize (grid0.coords t) 0; rw [h20]; exact r.isLt
      | ⟨1, _⟩ => show (j 1).val < win0_2.xsize (grid0.coords t) 1; rw [h21]; exact hj1
    unfold pbuf Pipeline.Window.fill
    rw [dif_pos hm]
    show V m c main_v9 (((cfg0.win 2).blk t).view.emb _) = V m c main_v9 _
    refine congrArg _ (funext fun a => Fin.ext ?_)
    match a with
    | ⟨0, _⟩ => show win0_2.index t (0 : Fin 2) * 2 + 1 * r.val = r.val; omega
    | ⟨1, _⟩ => show win0_2.index t (1 : Fin 2) * 2048 + 1 * (j 1).val = 2048 * t.val + (j 1).val; omega
  simp only [xblk_apply, hq, hp]
  rfl

/-- An index of the array is in point `t`'s block iff each coordinate is in the block's range, cut at the array's end. -/
theorem mem_blk (t : Fin cfg0.N) (i : S1x11008.Idx) :
    i ∈ ((cfg0.win 3).blk t).view.set ↔ ∀ a : Fin 2, win0_3.index t a * S1x2048.size a ≤ (i a).val
      ∧ (i a).val < win0_3.index t a * S1x2048.size a + win0_3.xsize (grid0.coords t) a := by
  show i ∈ ((View.whole main_v10).slice (win0_3.rect t)).set ↔ _
  rw [View.set_slice_whole, Rect.mem_set_unit]
  exact Iff.rfl

/-- Every column is in the block of the point that owns it: point (column / 2048). -/
theorem cover (i : S1x11008.Idx) :
    ∃ t : Fin cfg0.N, (cfg0.win 3).flush t = true ∧ i ∈ ((cfg0.win 3).blk t).view.set := by
  have hi0 : (i 0).val < 1 := (i 0).isLt
  have hi1 : (i 1).val < 11008 := (i 1).isLt
  have hN : grid0.N = 6 := N_0
  let t : Fin cfg0.N := ⟨(i 1).val / 2048, by show (i 1).val / 2048 < grid0.N; omega⟩
  obtain ⟨-, -, -, -, -, -, e30, e31, x30, x31⟩ := idx_facts t
  have htv : t.val = (i 1).val / 2048 := rfl
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + win0_3.xsize (grid0.coords t) (0 : Fin 2); omega
  | ⟨1, _⟩ => show win0_3.index t (1 : Fin 2) * 2048 ≤ (i 1).val ∧ (i 1).val < win0_3.index t (1 : Fin 2) * 2048 + win0_3.xsize (grid0.coords t) (1 : Fin 2); omega

/-- THE RESULT ARRAY after the run. -/
theorem final (c : Dev nD) : (dats m 0 c).arrAt 3 cfg0.N = Gk m c :=
  (dats m 0 c).arrAt_eq_of_cover 3 (Gk m c) (fun t _ => flushed_eq m c t) cover

end Cert.KernelIdeal.Hand

end
-- ==== Proof.HostSide.lean ====
/-
  What the kernel's own host operations hand to the region, read at an index, over the extended reals.
  The activations are re-laid so that entry (s, p) is input feature 8 p + s; the parameter array's row 0 is the
  scales and its row 1 is  bias - (sum of the activations) * zero.
-/
import proofs.«415450_j4509715661028_3_alg».proof.Proof.Arrays
import proofs.«415450_j4509715661028_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The re-laid activations as a term of the launched activation row: the row re-shaped to a vector, the vector
    re-shaped to 512 rows of eight (row-major), and the matrix transposed. -/
theorem xt_term (c : Dev nD) :
    (V m c main_v2 : S8x512.Idx → EReal) = transpose S8x512 [1, 0] (shapeCast S512x8 (shapeCast S4096 (m ((c.tc : Thread nD τ).loc main_arg0) : S1x4096.Idx → EReal) shapeCasts_S1x4096_S4096) shapeCasts_S4096_S512x8) transposes_S512x8_S8x512_1_0 := by
  dsimp only [Gen.V, Gen.hostOps0]
  after_results
  rfl

/-- The parameter array as a term of the launched arrays: the scales as one row, over
    bias - (the activations' sum, spread over the columns) * zero  as one row. -/
theorem pr_term (c : Dev nD) :
    (V m c main_v9 : S2x11008.Idx → EReal) =
      concatenate S2x11008 0
        [⟨S1x11008, broadcastInDim S1x11008 ![1] bcast_S11008_S1x11008_1 (m ((c.tc : Thread nD τ).loc main_arg2) : S11008.Idx → EReal)⟩,
         ⟨S1x11008, broadcastInDim S1x11008 ![1] bcast_S11008_S1x11008_1
            (subf (F := Ideal) (m ((c.tc : Thread nD τ).loc main_arg4))
              (mulf (F := Ideal)
                (broadcastInDim S11008 ![] bcast_S_S11008
                  (Host.reduceAdd (F := Ideal) (m ((c.tc : Thread nD τ).loc main_arg0)) (constant (F := Ideal) S_ .f32 0x00000000#32) reducesTo_S1x4096_S_d0_1 h_S_))
                (m ((c.tc : Thread nD τ).loc main_arg3))))⟩]
        concatenates_S1x11008_S1x11008_S2x11008_d0 := by
  dsimp only [Gen.V, Gen.hostOps0]
  after_results

/-- The sum of a [1, 4096] array over both axes from the float zero is the zero plus the sum over every index;
    the first axis has one coordinate, so that is the sum along the row. -/
theorem sum_term (x : FVec Ideal S1x4096 .f32) (i : S_.Idx) :
    Host.reduceAdd (F := Ideal) x (constant (F := Ideal) S_ .f32 0x00000000#32) reducesTo_S1x4096_S_d0_1 h_S_ i = Cert.Spec.xsum x := by
  simp only [Host.reduceAdd, Ideal.hostReduceAdd_def]
  rw [Ideal.hostReduceAdd_total reducesTo_S1x4096_S_d0_1 (fun b => b.elim0), sum_idx2, Fin.sum_univ_one]
  rfl

/-- A vector laid as the one row of a [1, 11008] array reads, at (0, j), the vector at j. -/
theorem row_apply (x : S11008.Idx → EReal) (j : Fin 11008) :
    broadcastInDim S1x11008 ![1] bcast_S11008_S1x11008_1 x (ix2 (0 : Fin 1) j) = x (ix1 j) :=
  broadcastInDim_apply _ bcast_S11008_S1x11008_1 x _ (ix1 j) (fun a => match a with
    | ⟨0, _⟩ => by show j.val = if (11008 : Nat) = 1 then 0 else j.val; rw [if_neg (by decide)])

/-- The re-laid activations: entry (s, p) is input feature 8 p + s. -/
theorem xtArr_apply (c : Dev nD) (s : Fin 8) (p : Fin 512) :
    xtArr m c (ix2 s p) = xArr m c (ix2 (0 : Fin 1) (Cert.Spec.feat p s)) := by
  show (V m c main_v2 : S8x512.Idx → EReal) (ix2 s p) = _
  -- entry (s, p) of the transpose is entry (p, s) of the [512, 8] matrix
  rw [xt_term m c, transpose_ix2_apply]
  -- whose row-major position is 8 p + s
  rw [shapeCast_apply _ shapeCasts_S4096_S512x8 (ix2 p s) (ix1 (Cert.Spec.feat p s))
    (by rw [Shape.rowMajor_val_one, Shape.rowMajor_val_two]; show 8 * p.val + s.val = p.val * 8 + s.val; omega)]
  -- which is also the position of (0, 8 p + s) in the [1, 4096] row
  exact shapeCast_apply _ shapeCasts_S1x4096_S4096 (ix1 (Cert.Spec.feat p s)) (ix2 (0 : Fin 1) (Cert.Spec.feat p s))
    (by rw [Shape.rowMajor_val_one, Shape.rowMajor_val_two]; show 0 * 4096 + (8 * p.val + s.val) = 8 * p.val + s.val; omega)

/-- Row 0 of the parameter array: the scales. -/
theorem prArr_row0 (c : Dev nD) (j : Fin 11008) :
    prArr m c (ix2 (0 : Fin 2) j) = scArr m c (ix1 j) := by
  show (V m c main_v9 : S2x11008.Idx → EReal) (ix2 (0 : Fin 2) j) = _
  -- row 0 lies in the first piece, at (0, j)
  rw [pr_term m c]
  rw [concatenate_pair_apply_left (t := S2x11008) (s₁ := S1x11008) (s₂ := S1x11008) (0 : Fin 2) _ _ concatenates_S1x11008_S1x11008_S2x11008_d0 (ix2 (0 : Fin 2) j) rfl (ix2 (0 : Fin 1) j)
    (fun b => match b with | ⟨0, _⟩ => rfl | ⟨1, _⟩ => rfl)]
  exact row_apply _ j

/-- Row 1 of the parameter array: the bias less the activations' sum times the zero point. -/
theorem prArr_row1 (c : Dev nD) (j : Fin 11008) :
    prArr m c (ix2 (1 : Fin 2) j) = bArr m c (ix1 j) - Cert.Spec.xsum (xArr m c) * zArr m c (ix1 j) := by
  show (V m c main_v9 : S2x11008.Idx → EReal) (ix2 (1 : Fin 2) j) = _
  -- row 1 lies in the second piece, the first piece's one row less: at (0, j)
  rw [pr_term m c]
  rw [concatenate_pair_apply_right (t := S2x11008) (s₁ := S1x11008) (s₂ := S1x11008) (0 : Fin 2) _ _ concatenates_S1x11008_S1x11008_S2x11008_d0 (ix2 (1 : Fin 2) j) rfl rfl (ix2 (0 : Fin 1) j)
    (fun b hb => match b, hb with | ⟨0, _⟩, hb => absurd rfl hb | ⟨1, _⟩, _ => rfl) rfl]
  -- there the difference and the product are taken entry by entry, and the spread scalar is the activations' sum
  rw [row_apply, subf_apply, mulf_apply]
  rw [broadcastInDim_apply _ bcast_S_S11008 _ (ix1 j) ix0 (fun a => a.elim0), sum_term]

end Cert.KernelIdeal.Hand

end
-- ==== Proof.KernelValue.lean ====
/-
  The idealized kernel computes the specification.
  The result array ends at the products summed weight position by weight position over the re-laid activations, scaled
  by the parameter array's row 0 and shifted by its row 1. The re-laid entry (s, p) is input feature 8 p + s, row 0
  is the scales and row 1 is  bias - (sum of x) * zero;  so by the re-indexing of the 4096 features as 512 packed rows
  times eight positions, and by  A * s + (b - c) = (A * s - c) + b,  the array is the layer's result.
-/
import proofs.«415450_j4509715661028_3_alg».proof.Proof.Cover
import proofs.«415450_j4509715661028_3_alg».proof.Proof.HostSide

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The layer's result, of the five arguments as launched on device `c`. -/
abbrev spec (c : Dev nD) : FVec Ideal S1x11008 .f32 :=
  Cert.Spec.G (xArr m c) (qArr m c) (scArr m c) (zArr m c) (bArr m c)

/-- The kernel's closed form is the specification. -/
theorem Gk_eq (c : Dev nD) : Gk m c = spec m c := by
  funext i
  obtain ⟨a, J, rfl⟩ : ∃ (a : Fin 1) (J : Fin 11008), i = ix2 a J := ⟨i 0, i 1, eq_ix2 i⟩
  show (∑ s : Fin 8, ∑ p : Fin 512, xtArr m c (ix2 s p) * Cert.Spec.nib (qV m c (ix2 p J)) s) * prArr m c (ix2 (0 : Fin 2) J)
      + prArr m c (ix2 (1 : Fin 2) J)
    = (Cert.Spec.dot (xArr m c) (qArr m c) J * scArr m c (ix1 J) - Cert.Spec.xsum (xArr m c) * zArr m c (ix1 J)) + bArr m c (ix1 J)
  rw [prArr_row0, prArr_row1, qV_eq, Cert.Spec.dot_eq_by_position, ← Cert.Spec.regroup]
  refine congrArg (fun A => A * scArr m c (ix1 J) + (bArr m c (ix1 J) - Cert.Spec.xsum (xArr m c) * zArr m c (ix1 J))) ?_
  exact Finset.sum_congr rfl fun s _ => Finset.sum_congr rfl fun p _ =>
    congrArg (· * Cert.Spec.nib (qArr m c (ix2 p J)) s) (xtArr_apply m c s p)

/-- The run of the idealized kernel: the result array ends at the specification, the five arguments as launched. -/
theorem run : θ_run defs (onTc (τ := τ) (main (F := Ideal))) ⟨m, fun _ => 0, ρ⟩ fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(((h c).1 3).trans (final m c)).trans (Gk_eq m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefValue.lean ====
/-
  The reference program's result is the specification: at output column j it is
  ( sum over the 4096 input features k of x[k] * weight (k mod 8) of q[k / 8, j] ) * scale[j] - (sum of x) * zero[j] + bias[j].
-/
import proofs.«415450_j4509715661028_3_alg».proof.Proof.Gen.ReferenceIdeal.Read
import proofs.«415450_j4509715661028_3_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The shift amount of weight position `s`: `s` times four, as a 32-bit word. -/
theorem shift_amount (s : Fin 8) : IntOp.muli (BitVec.ofNat 32 s.val) 4#32 = BitVec.ofNat 32 (4 * s.val) := by
  revert s; decide

/-- A shift by less than the width is the arithmetic shift itself. -/
theorem shrsi_host (w : BitVec 32) (s : Fin 8) :
    IntOp.shrsi .host w (BitVec.ofNat 32 (4 * s.val)) = w.sshiftRight' (BitVec.ofNat 32 (4 * s.val)) := by
  unfold IntOp.shrsi
  rw [if_pos]
  revert s; decide

/-- Row `k` of the unpacked matrix is weight `k mod 8` of packed row `k / 8`: the reshape sends flat position
    `k * 11008 + j` of the `4096 x 11008` matrix to `(k / 8, k mod 8, j)` of the `512 x 8 x 11008` one, whose entry is
    the packed word `q[k / 8, j]` shifted right by `4 (k mod 8)` and masked with 15. -/
theorem weight_eq (q : (⟨S512x11008, .i32⟩ : BufTy).Contents (Elt Ideal)) (k : Fin 4096) (j : Fin 11008) :
    val_main_v11 (F := Ideal) q (ix2 k j) = Cert.Spec.nib (q (ix2 (Cert.Spec.prow k) j)) (Cert.Spec.ppos k) := by
  rw [val_main_v11_apply, val_main_v10_apply, val_main_v9_apply, val_main_v8_apply, val_main_c_0_apply,
    val_main_v7_apply, val_main_v6_apply, val_main_v5_apply, val_main_v4_apply, val_main_v3_apply,
    val_main_v2_apply, val_main_v1_apply, val_main_v0_apply, val_main_c_apply]
  have hk := k.isLt
  have hj := j.isLt
  have e1 : idx_main_v3 (idx_main_v5 (idx_main_v10 (ix2 k j))) = ix2 (Cert.Spec.prow k) j :=
    funext fun a => Fin.ext (by
      match a with
      | ⟨0, _⟩ => show (k.val * 11008 + j.val) / 88064 = k.val / 8; omega
      | ⟨1, _⟩ => show (k.val * 11008 + j.val) % 11008 = j.val; omega)
  have e2 : (idx_main_v4 (idx_main_v6 (idx_main_v10 (ix2 k j))) 0).val = (Cert.Spec.ppos k).val := by
    show (k.val * 11008 + j.val) / 11008 % 8 = k.val % 8; omega
  rw [e1, e2, shift_amount, shrsi_host]
  rfl

/-- The reference's last stage is the specification's function of the five arguments. -/
theorem ref_eq (x : (⟨S1x4096, .f32⟩ : BufTy).Contents (Elt Ideal)) (q : (⟨S512x11008, .i32⟩ : BufTy).Contents (Elt Ideal))
    (sc z b : (⟨S11008, .f32⟩ : BufTy).Contents (Elt Ideal)) :
    val_main_v22 (F := Ideal) x q sc z b = Cert.Spec.G x q sc z b := by
  funext i
  obtain ⟨a, j, rfl⟩ : ∃ a j, i = ix2 a j := ⟨i 0, i 1, eq_ix2 i⟩
  obtain rfl : a = 0 := Subsingleton.elim _ _
  rw [val_main_v22_apply, val_main_v21_apply, val_main_v20_apply, val_main_v19_apply, val_main_v18_apply,
    val_main_v17_apply, val_main_v16_apply, val_main_v15_apply, val_main_v14_apply, val_main_v13_apply,
    val_main_v12_apply]
  have el : ∀ k : Fin 4096, lidx_main_v12 (ix2 (0 : Fin 1) j) k = ix2 0 k := fun k =>
    funext fun d => Fin.ext (by match d with | ⟨0, _⟩ => rfl | ⟨1, _⟩ => rfl)
  have er : ∀ k : Fin 4096, ridx_main_v12 (ix2 (0 : Fin 1) j) k = ix2 k j := fun k =>
    funext fun d => Fin.ext (by match d with | ⟨0, _⟩ => rfl | ⟨1, _⟩ => rfl)
  have es : ∀ k : Fin 4096, idx_main_v13 (idx_main_v14 (idx_main_v18 (ix2 (0 : Fin 1) j))) k = ix2 0 k := fun k =>
    funext fun d => Fin.ext (by match d with | ⟨0, _⟩ => rfl | ⟨1, _⟩ => rfl)
  have e15 : idx_main_v15 (ix2 (0 : Fin 1) j) = ix1 j := funext fun d => Fin.ext (by match d with | ⟨0, _⟩ => rfl)
  have e17 : idx_main_v17 (ix2 (0 : Fin 1) j) = ix1 j := funext fun d => Fin.ext (by match d with | ⟨0, _⟩ => rfl)
  have e21 : idx_main_v21 (ix2 (0 : Fin 1) j) = ix1 j := funext fun d => Fin.ext (by match d with | ⟨0, _⟩ => rfl)
  simp only [el, er, es, e15, e17, e21, weight_eq]
  -- both sides are now the same expression: the float operations over the extended reals are `*`, `-`, `+`,
  -- and the constant zero is the specification's
  rfl

end Cert.ReferenceIdeal.RefValue

end
-- ==== Proof.lean ====
/-
  A 4-bit-quantized linear layer on one activation row: the Pallas kernel against its jnp reference.

  The kernel re-lays the 4096 activations as an 8 x 512 array (entry (s, p) is feature 8 p + s), folds
  bias - (sum of x) * zero  into one parameter row beside the scales, and for each block of 2048 output columns unpacks the
  eight 4-bit weights of every packed word, multiplies row s of the activations by the weight-s matrix, adds the eight
  products, scales and shifts. The reference unpacks all 4096 x 11008 weights, takes one product  x @ W,  and computes
  (x @ W) * scale - (sum of x) * zero + bias.

  Over the extended reals both are the same function of the five arguments (Proof/Spec.lean): the reference by reading
  its operations one at a time (Proof/RefValue.lean); the kernel by the body's stored row read at a lane
  (Proof/KernelRow.lean), the six points' write-backs pieced into the whole array although the last blocks overhang it
  (Proof/FrameI.lean, Proof/Cover.lean), and the kernel's own host operations read at an index (Proof/HostSide.lean), joined
  in Proof/KernelValue.lean by a re-indexing of a finite sum and  A * s + (b - c) = (A * s - c) + b,  which need no
  finiteness. The word-level program's frame is Proof/FrameK.lean. The idealization rewrote nothing, so `preserves` is
  `True`.
-/
import proofs.«415450_j4509715661028_3_alg».proof.Defs
import proofs.«415450_j4509715661028_3_alg».proof.Proof.Gen.Kernel
import proofs.«415450_j4509715661028_3_alg».proof.Proof.Gen.KernelIdeal
import proofs.«415450_j4509715661028_3_alg».proof.Proof.Gen.ReferenceIdeal
import proofs.«415450_j4509715661028_3_alg».proof.Proof.Gen.Pre_finite_inputs
import proofs.«415450_j4509715661028_3_alg».proof.Proof.Gen.ReferenceIdeal.Run
import proofs.«415450_j4509715661028_3_alg».proof.Proof.FrameK
import proofs.«415450_j4509715661028_3_alg».proof.Proof.KernelValue
import proofs.«415450_j4509715661028_3_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k [Cert.Kernel.Facts] [Cert.Pre_finite_inputs.Facts] : Cert.frame_Kernel :=
  fun m ρ _ => Cert.Kernel.Hand.frame (F := Bits) m ρ

/-- So does the idealized kernel. -/
theorem frame_ki [Cert.KernelIdeal.Facts] [Cert.Pre_finite_inputs.Facts] : Cert.frame_KernelIdeal :=
  fun m ρ _ => Cert.KernelIdeal.Hand.frame m ρ

/-- So does the idealized reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the layer's result of the arguments they agree on. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
